-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8x4096x1024 : Shape := ⟨3, ![8, 4096, 1024]⟩
abbrev S8x4096 : Shape := ⟨2, ![8, 4096]⟩
abbrev S8 : Shape := ⟨1, ![8]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : FVec F S8192x1024 .f32) (main_arg1 : FVec F S8x4096x1024 .f32) (main_arg2 : FVec F S8x4096 .f32) (main_arg3 : IVec S8 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  main_v13
-- ==== Kernel.lean ====
abbrev S8192x1024 : Shape := ⟨2, ![8192, 1024]⟩
abbrev S8x4096x1024 : Shape := ⟨3, ![8, 4096, 1024]⟩
abbrev S8x4096 : Shape := ⟨2, ![8, 4096]⟩
abbrev S8 : Shape := ⟨1, ![8]⟩
abbrev S8x1024x1024 : Shape := ⟨3, ![8, 1024, 1024]⟩
abbrev S8x1x4096 : Shape := ⟨3, ![8, 1, 4096]⟩
abbrev S8x1024x4096 : Shape := ⟨3, ![8, 1024, 4096]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩
abbrev S8192x4096 : Shape := ⟨2, ![8192, 4096]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8x4096x1024, .f32⟩
  | .hbm, ⟨2, _⟩ => ⟨S8x4096, .f32⟩
  | .hbm, ⟨3, _⟩ => ⟨S8, .i32⟩
  | .hbm, ⟨4, _⟩ => ⟨S8x1024x1024, .f32⟩
  | .hbm, ⟨5, _⟩ => ⟨S8x1024x1024, .bf16⟩
  | .hbm, ⟨6, _⟩ => ⟨S8x4096x1024, .bf16⟩
  | .hbm, ⟨7, _⟩ => ⟨S8x1x4096, .f32⟩
  | .hbm, ⟨8, _⟩ => ⟨S8x1024x4096, .f32⟩
  | .hbm, ⟨9, _⟩ => ⟨S8192x4096, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8192x1024_S8x1024x1024 : S8192x1024.ShapeCasts S8x1024x1024
  bitsLt_bf16_f32 : FTy.bits .bf16 < FTy.bits .f32
  shapeCasts_S8x4096_S8x1x4096 : S8x4096.ShapeCasts S8x1x4096
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  shapeCasts_S8x1024x4096_S8192x4096 : S8x1024x4096.ShapeCasts S8192x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .bf16 = 32 ∨ (Rect.block (s := S8x1024x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .bf16 = 32 ∨ (Rect.block (s := S8x4096x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x4096.size a
  hwx0_3 : ∀ i : grid0.Coords, EltTy.bits .f32 = 32 ∨ (Rect.block (s := S8x1024x4096) S1x1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8x4096x1024 : Shape := ⟨3, ![8, 4096, 1024]⟩
abbrev S8x4096 : Shape := ⟨2, ![8, 4096]⟩
abbrev S8 : Shape := ⟨1, ![8]⟩
abbrev S8x1024x1024 : Shape := ⟨3, ![8, 1024, 1024]⟩
abbrev S8x1024x4096 : Shape := ⟨3, ![8, 1024, 4096]⟩
abbrev S8x1x4096 : Shape := ⟨3, ![8, 1, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x4096x1024, .f32⟩
  | .hbm, ⟨2, _⟩ => ⟨S8x4096, .f32⟩
  | .hbm, ⟨3, _⟩ => ⟨S8, .i32⟩
  | .hbm, ⟨4, _⟩ => ⟨S8x1024x1024, .f32⟩
  | .hbm, ⟨5, _⟩ => ⟨S8x1024x4096, .f32⟩
  | .hbm, ⟨6, _⟩ => ⟨S8x1x4096, .f32⟩
  | .hbm, ⟨7, _⟩ => ⟨S8x1024x4096, .f32⟩
  | .hbm, ⟨8, _⟩ => ⟨S8x1024x4096, .f32⟩
  | .hbm, ⟨9, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S8192x1024_S8x1024x1024 : S8192x1024.ShapeCasts S8x1024x1024
  bcast_S8x4096_S8x1x4096_0_2 : S8x4096.BroadcastsInDim S8x1x4096 (![0, 2] : Fin 2 → Fin S8x1x4096.rank)
  bcast_S8x1x4096_S8x1024x4096_0_1_2 : S8x1x4096.BroadcastsInDim S8x1024x4096 (![0, 1, 2] : Fin 3 → Fin S8x1024x4096.rank)
  shapeCasts_S8x1024x4096_S8192x4096 : S8x1024x4096.ShapeCasts S8192x4096
  dot_S8x1024x1024_S8x4096x1024_S8x1024x4096_2_2_1_1_0_0_wf : DotDims.WF S8x1024x1024 S8x4096x1024 S8x1024x4096 [2] [2] [1] [1] [0] [0]

variable [Facts₀]

def dot_S8x1024x1024_S8x4096x1024_S8x1024x4096_2_2_1_1_0_0 : DotDims S8x1024x1024 S8x4096x1024 S8x1024x4096 where
  lhsContracting := [2]
  rhsContracting := [2]
  lhsNonContracting := [1]
  rhsNonContracting := [1]
  lhsBatch := [0]
  rhsBatch := [0]
  wf := dot_S8x1024x1024_S8x4096x1024_S8x1024x4096_2_2_1_1_0_0_wf

class Facts : Prop extends Facts₀ where

variable [Facts]
-- ==== Proof.Spec.lean ====
/-
  The function both programs compute, over the extended reals.

  8192 tokens lie grouped by expert, 1024 to each of 8 experts; expert e owns a weight matrix [4096, 1024]
  (output feature by input feature) and a bias row [4096].  Token t of expert e is row e·1024 + t of the flat
  token array.  The layer's output for that token at output feature o is

      Σ_k tokens[e·1024 + t, k] · weights[e, o, k]  +  bias[e, o].

  `layer` is that array indexed (e, t, o); flattening its first two axes gives the [8192, 4096] result.  The sum is a
  finite sum in a commutative monoid, and the bias is added to it once, on the right, in both programs: no law beyond
  re-indexing is needed to join them, so the inputs' finiteness is never used.
-/
import Idealize.ShloMosaic.PureOps.Ideal
import Idealize.ShloMosaic.Lib.ValueIdx

noncomputable section

namespace Cert.GroupedLinear

open Idealize.ShloMosaic Idealize.ShloMosaic.ValueIdx
open scoped BigOperators

/-- The flat row of token `t` of expert `e`. -/
abbrev tokenRow (e : Fin 8) (t : Fin 1024) : Fin 8192 := ⟨e.val * 1024 + t.val, by omega⟩

/-- One output entry, from its three coordinates. -/
def layerAt (x : (⟨2, ![8192, 1024]⟩ : Shape).Idx → EReal) (w : (⟨3, ![8, 4096, 1024]⟩ : Shape).Idx → EReal)
    (b : (⟨2, ![8, 4096]⟩ : Shape).Idx → EReal) (e : Fin 8) (t : Fin 1024) (o : Fin 4096) : EReal :=
  (∑ k : Fin 1024, x (ix2 (tokenRow e t) k) * w (ix3 e o k)) + b (ix2 e o)

/-- The whole output, indexed (expert, token within the expert, output feature). -/
def layer (x : (⟨2, ![8192, 1024]⟩ : Shape).Idx → EReal) (w : (⟨3, ![8, 4096, 1024]⟩ : Shape).Idx → EReal)
    (b : (⟨2, ![8, 4096]⟩ : Shape).Idx → EReal) : (⟨3, ![8, 1024, 4096]⟩ : Shape).Idx → EReal :=
  fun i => layerAt x w b ⟨(i 0).val, (i 0).isLt⟩ ⟨(i 1).val, (i 1).isLt⟩ ⟨(i 2).val, (i 2).isLt⟩

theorem layer_apply (x : (⟨2, ![8192, 1024]⟩ : Shape).Idx → EReal) (w : (⟨3, ![8, 4096, 1024]⟩ : Shape).Idx → EReal)
    (b : (⟨2, ![8, 4096]⟩ : Shape).Idx → EReal) (e : Fin 8) (t : Fin 1024) (o : Fin 4096) :
    layer x w b (ix3 e t o) = layerAt x w b e t o := rfl

end Cert.GroupedLinear

end
-- ==== Proof.Staged.lean ====
/-
  The three arrays the kernel's grid reads, as the lines before it leave them.

  Before the grid runs, the flat token array [8192, 1024] is viewed as [8, 1024, 1024] (expert, token, feature) and
  narrowed to bf16; the weights [8, 4096, 1024] are narrowed to bf16; the biases [8, 4096] are viewed as [8, 1, 4096].
  Over the extended reals narrowing changes nothing, and a view keeps row-major order: element (e, t, k) of the token
  view is flat element (e·1024 + t, k), and element (e, 0, o) of the bias view is (e, o).
-/
import proofs.«161583_j55551107007175_1_alg».proof.Proof.Gen.KernelIdeal.Frame
import proofs.«161583_j55551107007175_1_alg».proof.Proof.Spec
import Idealize.ShloMosaic.Lib.Pipeline.Value
import Idealize.ShloMosaic.Lib.StableHlo.Run

noncomputable section

namespace Cert.KernelIdeal.Layer

open Cert.KernelIdeal Cert.KernelIdeal.Gen Cert.GroupedLinear
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-- The three float arguments on core `c`, as launched. -/
abbrev tokens (c : Dev nD) : S8192x1024.Idx → EReal := m ((c : Thread nD τ).loc main_arg0)
abbrev weights (c : Dev nD) : S8x4096x1024.Idx → EReal := m ((c : Thread nD τ).loc main_arg1)
abbrev biases (c : Dev nD) : S8x4096.Idx → EReal := m ((c : Thread nD τ).loc main_arg2)

/-! ## What the region finds in its three input arrays -/

/-- The staged tokens: the flat array viewed [8, 1024, 1024] and narrowed. -/
theorem tokens_staged (c : Dev nD) :
    V m c main_v1 = truncf (F := Ideal) .bf16 (shapeCast S8x1024x1024 (tokens m c) shapeCasts_S8192x1024_S8x1024x1024) bitsLt_bf16_f32 := by
  show StableHlo.after hostOps0 (fun b => m (c, b)) (Proc.devRef .tc main_v1) = _
  after_results <;> rfl

/-- The staged weights: the argument, narrowed. -/
theorem weights_staged (c : Dev nD) :
    V m c main_v2 = truncf (F := Ideal) .bf16 (weights m c) bitsLt_bf16_f32 := by
  show StableHlo.after hostOps0 (fun b => m (c, b)) (Proc.devRef .tc main_v2) = _
  after_results <;> rfl

/-- The staged biases: the argument viewed [8, 1, 4096]. -/
theorem biases_staged (c : Dev nD) :
    V m c main_v3 = shapeCast S8x1x4096 (biases m c) shapeCasts_S8x4096_S8x1x4096 := by
  show StableHlo.after hostOps0 (fun b => m (c, b)) (Proc.devRef .tc main_v3) = _
  after_results <;> rfl

/-- Entry (e, t, k) of the staged tokens is the flat array's (e·1024 + t, k): narrowing is the identity on extended
    reals, and the view keeps row-major order. -/
theorem tokens_staged_apply (c : Dev nD) (e : Fin 8) (t k : Fin 1024) :
    V m c main_v1 (ix3 e t k) = tokens m c (ix2 (tokenRow e t) k) := by
  rw [tokens_staged]
  show shapeCast S8x1024x1024 (tokens m c) shapeCasts_S8192x1024_S8x1024x1024 (ix3 e t k) = _
  exact shapeCast_apply _ _ _ _ (by
    rw [Shape.rowMajor_val_two, Shape.rowMajor_val_three]
    show (e.val * 1024 + t.val) * 1024 + k.val = (e.val * 1024 + t.val) * 1024 + k.val
    rfl)

/-- Entry (e, o, k) of the staged weights is the argument's. -/
theorem weights_staged_apply (c : Dev nD) (e : Fin 8) (o : Fin 4096) (k : Fin 1024) :
    V m c main_v2 (ix3 e o k) = weights m c (ix3 e o k) := by
  rw [weights_staged]; rfl

/-- Entry (e, 0, o) of the staged biases is the argument's (e, o). -/
theorem biases_staged_apply (c : Dev nD) (e : Fin 8) (z : Fin 1) (o : Fin 4096) :
    V m c main_v3 (ix3 e z o) = biases m c (ix2 e o) := by
  rw [biases_staged]
  exact shapeCast_apply _ _ _ _ (by
    rw [Shape.rowMajor_val_two, Shape.rowMajor_val_three]
    have hz : z.val = 0 := by omega
    show e.val * 4096 + o.val = (e.val * 1 + z.val) * 4096 + o.val
    rw [hz]; omega)

end Cert.KernelIdeal.Layer

end
-- ==== Proof.Tile.lean ====
/-
  One grid point's work, read element by element over the extended reals.

  At grid point (e, n) the body holds three blocks: the 1024 tokens of expert e (rows r, features k), rows
  n·1024 … n·1024+1023 of expert e's weight matrix (output features q, features k), and the matching 1024 bias
  entries.  It contracts the feature axis of the first two into an accumulator that starts at zero and adds the bias row
  to every token row.  So element (r, q) of what it stores is

      Σ_k tokens[r, k] · weights[q, k]  +  bias[q].

  The two bf16 roundings that precede the product are the identity over the extended reals and do not appear here: the
  blocks are taken as they are.
-/
import proofs.«161583_j55551107007175_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-! ## The product's operand indices, axis by axis

The product contracts axis 1 of both operands; the result's row is the left operand's row and the result's column is
the right operand's ROW (the weights are stored output-feature-major, so the product is with the transpose). -/

theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_feature (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_feature (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into a zero accumulator, at (r, q): the sum over the 1024 features of left[r, k] · right[q, k]. -/
theorem product_apply (a b : FVec Ideal S1024x1024 .bf16) (r q : Fin 1024) :
    matmul dot_S1024x1024_S1024x1024_S1024x1024_1_1_0_0_n_n none a b (constant S1024x1024 .f32 0x00000000#32) (ix2 r q)
      = ∑ k : Fin 1024, a (ix2 r k) * b (ix2 q k) := by
  show FloatOps.matmul dot_S1024x1024_S1024x1024_S1024x1024_1_1_0_0_n_n none a b (constant S1024x1024 .f32 0x00000000#32) (ix2 r q) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r q) ((contrEquiv1 dot_S1024x1024_S1024x1024_S1024x1024_1_1_0_0_n_n 1024 rfl rfl).symm k) = ix2 r k := funext fun a => Fin.ext (by
    match a with
    | ⟨0, _⟩ => exact lhs_row _ _
    | ⟨1, _⟩ => exact (lhs_feature _ _).trans hk)
  have er : dot_S1024x1024_S1024x1024_S1024x1024_1_1_0_0_n_n.rhsIdx (ix2 r q) ((contrEquiv1 dot_S1024x1024_S1024x1024_S1024x1024_1_1_0_0_n_n 1024 rfl rfl).symm k) = ix2 q k := funext fun a => Fin.ext (by
    match a with
    | ⟨0, _⟩ => exact rhs_row _ _
    | ⟨1, _⟩ => exact (rhs_feature _ _).trans hk)
  rw [el, er]

/-- A [1, 1024, 1024] block seen as a [1024, 1024] matrix: entry (r, k) is the block's (0, r, k). -/
theorem matrix_of_block_apply {α : Type} (x : S1x1024x1024.Idx → α) (r k : Fin 1024) :
    shapeCast S1024x1024 x shapeCasts_S1x1024x1024_S1024x1024 (ix2 r k) = x (ix3 0 r k) := by
  rw [shapeCast_dropUnit_apply]
  congr 1
  funext a; match a with | ⟨0, _⟩ => rfl | ⟨1, _⟩ => rfl | ⟨2, _⟩ => rfl

/-- The bias block [1, 1, 1024] broadcast over the 1024 token rows: entry (r, q) is the block's (0, 0, q). -/
theorem bias_rows_apply {α : Type} (x : S1x1x1024.Idx → α) (r q : Fin 1024) :
    broadcastTo S1024x1024 (shapeCast S1x1024 x shapeCasts_S1x1x1024_S1x1024) broadcasts_S1x1024_S1024x1024 (ix2 r q) = x (ix3 0 0 q) := by
  rw [broadcastTo_apply _ _ _ (ix2 0 q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])]
  rw [shapeCast_dropUnit_apply]
  congr 1
  funext a; match a with | ⟨0, _⟩ => rfl | ⟨1, _⟩ => rfl | ⟨2, _⟩ => rfl

/-- WHAT THE BODY STORES, at (0, r, q) of the output block: the tokens' row r against the weights' row q, plus bias q. -/
theorem stored_apply (x0 x1 : Vec Ideal S1x1024x1024 .bf16) (x2 : Vec Ideal S1x1x1024 .f32) (z : Fin 1) (r q : Fin 1024) :
    k0_pay1 (F := Ideal) x0 x1 x2 (ix3 z r q) = (∑ k : Fin 1024, x0 (ix3 0 r k) * x1 (ix3 0 q k)) + x2 (ix3 0 0 q) := by
  unfold k0_pay1
  rw [shapeCast_addUnit_apply]
  have hj : (fun a : Fin 2 => (ix3 z r q : S1x1024x1024.Idx) a.succ) = ix2 r q := by
    funext a; match a with | ⟨0, _⟩ => rfl | ⟨1, _⟩ => rfl
  rw [hj, addf_apply, product_apply, bias_rows_apply]
  simp only [matrix_of_block_apply]

end Cert.KernelIdeal.Tile

end
-- ==== Proof.Blocks.lean ====
/-
  What one grid point writes back is its block of the layer.

  Point (e, n) of the 8 × 4 grid holds expert e's 1024 tokens, rows n·1024 … n·1024 + 1023 of expert e's weights and
  the matching biases; it writes the [1024, 1024] block of the output at expert e, columns n·1024 ….  Element (r, q) of
  that block is Σ_k tokens[e·1024 + r, k] · weights[e, n·1024 + q, k] + bias[e, n·1024 + q], which is the layer's entry
  (e, r, n·1024 + q): each input block is its array read where the output block's position says.
-/
import proofs.«161583_j55551107007175_1_alg».proof.Proof.Staged
import proofs.«161583_j55551107007175_1_alg».proof.Proof.Tile

set_option maxRecDepth 16384

noncomputable section

namespace Cert.KernelIdeal.Layer

open Cert.KernelIdeal Cert.KernelIdeal.Gen Cert.GroupedLinear
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The grid: which blocks a point holds

Point (e, n) of the 8 × 4 grid holds expert e's whole token block, rows n·1024 … of expert e's weights, the matching
1024 biases, and writes columns n·1024 … of expert e's output block.  These relations between the four index maps
are decided once, over the 32 points. -/

theorem zero_offsets : (![0, 0, 0] : Fin 3 → Nat) = fun _ => 0 := funext fun a => by fin_cases a <;> rfl

theorem block_indices : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = win0_3.index t (2 : Fin 3) ∧ win0_1.index t (2 : Fin 3) = 0
    ∧ win0_2.index t (0 : Fin 3) = win0_3.index t (0 : Fin 3) ∧ win0_2.index t (1 : Fin 3) = 0 ∧ win0_2.index t (2 : Fin 3) = win0_3.index t (2 : Fin 3)
    ∧ win0_3.index t (0 : Fin 3) ≤ 7 ∧ win0_3.index t (1 : Fin 3) = 0 ∧ win0_3.index t (2 : Fin 3) ≤ 3 :=
  (by decide +kernel : ∀ t : Fin grid0.N, _)

/-- Every (expert, column tile) pair is some point's output block. -/
theorem block_onto : ∀ (e : Fin 8) (n : Fin 4), ∃ t : Fin cfg0.N, win0_3.index t = ![e.val, 0, n.val] :=
  (by decide +kernel : ∀ (e : Fin 8) (n : Fin 4), ∃ t : Fin grid0.N, win0_3.index t = ![e.val, 0, n.val])

/-! ## What a point writes back is its block of the layer -/

theorem flushed_eq (c : Dev nD) (t : Fin cfg0.N) :
    (dats m 0 c).flushed 3 t = ((cfg0.win 3).blk t).view.read (Elt Ideal) (layer (tokens m c) (weights m c) (biases m c)) := by
  show (cfg0.win 3).cut (grid0.coords t) ((dats m 0 c).after 3 t) = _
  rw [after0_3]
  unfold out0_3
  rw [View.canon_unit_zero zero_offsets]
  simp only [View.ld_unit_zero (S := S1x1024x1024) zero_offsets, View.ld_unit_zero (S := S1x1x1024) zero_offsets]
  obtain ⟨a0, a1, a2, b0, b1, b2, d0, d1, d2, o0, o1, o2⟩ := block_indices t
  funext j
  obtain ⟨z, r, q, rfl⟩ : ∃ (z : Fin 1) (r q : Fin 1024), j = ix3 z r q := ⟨j 0, j 1, j 2, eq_ix3 j⟩
  have hz : z.val = 0 := by omega
  -- the point's expert and its column tile
  let E : Fin 8 := ⟨win0_3.index t (0 : Fin 3), by omega⟩
  let O : Fin 4096 := ⟨win0_3.index t (2 : Fin 3) * 1024 + q.val, by omega⟩
  -- the three input blocks, read where the output block's rectangle says
  have hx : ∀ k : Fin 1024, iblk m c 0 t (ix3 0 r k) = tokens m c (ix2 (tokenRow E r) k) := fun k => by
    refine Eq.trans ?_ (tokens_staged_apply m c E r k)
    show V m c main_v1 (((cfg0.win 0).blk t).view.emb (ix3 0 r k)) = V m c main_v1 (ix3 E r k)
    refine congrArg (V m c main_v1) (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * r.val = r.val; omega
    | ⟨2, _⟩ => show win0_0.index t (2 : Fin 3) * 1024 + 1 * k.val = k.val; omega
  have hw : ∀ k : Fin 1024, iblk m c 1 t (ix3 0 q k) = weights m c (ix3 E O k) := fun k => by
    refine Eq.trans ?_ (weights_staged_apply m c E O k)
    show V m c main_v2 (((cfg0.win 1).blk t).view.emb (ix3 0 q k)) = V m c main_v2 (ix3 E O k)
    refine congrArg (V m c main_v2) (funext fun a => Fin.ext ?_)
    match a with
    | ⟨0, _⟩ => show win0_1.index t (0 : Fin 3) * 1 + 1 * 0 = win0_3.index t (0 : Fin 3); omega
    | ⟨1, _⟩ => show win0_1.index t (1 : Fin 3) * 1024 + 1 * q.val = win0_3.index t (2 : Fin 3) * 1024 + q.val; omega
    | ⟨2, _⟩ => show win0_1.index t (2 : Fin 3) * 1024 + 1 * k.val = k.val; omega
  have hb : iblk m c 2 t (ix3 0 0 q) = biases m c (ix2 E O) := by
    refine Eq.trans ?_ (biases_staged_apply m c E 0 O)
    show V m c main_v3 (((cfg0.win 2).blk t).view.emb (ix3 0 0 q)) = V m c main_v3 (ix3 E 0 O)
    refine congrArg (V m c main_v3) (funext fun a => Fin.ext ?_)
    match a with
    | ⟨0, _⟩ => show win0_2.index t (0 : Fin 3) * 1 + 1 * 0 = win0_3.index t (0 : Fin 3); omega
    | ⟨1, _⟩ => show win0_2.index t (1 : Fin 3) * 1 + 1 * 0 = 0; omega
    | ⟨2, _⟩ => show win0_2.index t (2 : Fin 3) * 1024 + 1 * q.val = win0_3.index t (2 : Fin 3) * 1024 + q.val; omega
  -- where the output block's element sits in the array
  have hout : ((cfg0.win 3).blk t).view.emb (ix3 z r q) = ix3 E r O := funext fun a => Fin.ext (by
    match a with
    | ⟨0, _⟩ => show win0_3.index t (0 : Fin 3) * 1 + 1 * z.val = win0_3.index t (0 : Fin 3); omega
    | ⟨1, _⟩ => show win0_3.index t (1 : Fin 3) * 1024 + 1 * r.val = r.val; omega
    | ⟨2, _⟩ => show win0_3.index t (2 : Fin 3) * 1024 + 1 * q.val = win0_3.index t (2 : Fin 3) * 1024 + q.val; omega)
  refine (Tile.stored_apply (iblk m c 0 t) (iblk m c 1 t) (iblk m c 2 t) z r q).trans ?_
  show _ = layer (tokens m c) (weights m c) (biases m c) (((cfg0.win 3).blk t).view.emb (ix3 z r q))
  rw [hout, layer_apply, hb]
  unfold layerAt
  exact congrArg (· + biases m c (ix2 E O)) (Finset.sum_congr rfl fun k _ => by rw [hx k, hw k])

end Cert.KernelIdeal.Layer

end
-- ==== Proof.Output.lean ====
/-
  The output array after the whole grid, and the program's result.

  The 32 output blocks tile the [8, 1024, 4096] array: entry (e, t, o) belongs to the point with expert e and column
  tile o / 1024.  Every block is the layer's, so the array is the layer; the line after the grid flattens its first two
  axes into the [8192, 4096] result.
-/
import proofs.«161583_j55551107007175_1_alg».proof.Proof.Blocks

set_option maxRecDepth 16384

noncomputable section

namespace Cert.KernelIdeal.Layer

open Cert.KernelIdeal Cert.KernelIdeal.Gen Cert.GroupedLinear
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The output blocks tile the array -/

/-- An index of the output array is in point `t`'s block iff each coordinate is in the block's range on its axis. -/
theorem mem_blk (t : Fin cfg0.N) (i : S8x1024x4096.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v4).slice (win0_3.rect t)).set ↔ _
  rw [View.set_slice_whole, Rect.mem_set_unit]
  exact Iff.rfl

/-- Entry (e, t, o) lies in the block of the point with expert e and column tile o / 1024. -/
theorem covered (i : S8x1024x4096.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 4096 := (i 2).isLt
  obtain ⟨t, ht⟩ := block_onto ⟨(i 0).val, hi0⟩ ⟨(i 2).val / 1024, by omega⟩
  have q0 : win0_3.index t (0 : Fin 3) = (i 0).val := congrFun ht 0
  have q1 : win0_3.index t (1 : Fin 3) = 0 := congrFun ht 1
  have q2 : win0_3.index t (2 : Fin 3) = (i 2).val / 1024 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE REGION'S OUTPUT ARRAY after the run is the layer. -/
theorem region_output (c : Dev nD) :
    (dats m 0 c).arrAt 3 cfg0.N = layer (tokens m c) (weights m c) (biases m c) :=
  (dats m 0 c).arrAt_eq_of_cover 3 _ (fun t _ => flushed_eq m c t) covered

/-! ## The line after the region, and the run -/

/-- The program's result: the layer with its expert and token axes flattened. -/
theorem result_eq (c : Dev nD) :
    Pipeline.afterTail₀ cfgs (dats m) 0 (V0 m) [hostOps1] c main_v5
      = shapeCast S8192x4096 (layer (tokens m c) (weights m c) (biases m c)) shapeCasts_S8x1024x4096_S8192x4096 := by
  unfold Pipeline.afterTail₀
  show StableHlo.after hostOps1 _ (Proc.devRef .tc main_v5) = _
  after_results
  exact congrArg (fun A => shapeCast S8192x4096 A shapeCasts_S8x1024x4096_S8192x4096)
    ((Pipeline.withArrays_arr spec0 launch0.win.arr_inj c (V0 m c) (fun w => (dats m 0 c).arrAt w cfg0.N) 3).trans (region_output m c))

/-- The idealized kernel's run: it terminates with its result at the flattened layer of the arguments, which it leaves
    unchanged. -/
theorem run : θ_run defs (onTc (τ := τ) (main (F := Ideal))) ⟨m, fun _ => 0, ρ⟩ fun r => ∀ c : Dev nD,
      r.2.mem ((c : Thread nD τ).loc main_v5)
        = shapeCast S8192x4096 (layer (tokens m c) (weights m c) (biases m c)) shapeCasts_S8x1024x4096_S8192x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v5 (Pipeline.mem_restRefs_of main_v5 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Layer

end
-- ==== Proof.Reference.lean ====
/-
  The reference, stage by stage, is `layer`.

  It views the tokens as [8, 1024, 1024] (expert, token, feature), contracts the feature axis against the weights with
  the expert axis as a batch axis, and adds the bias broadcast along the token axis.  Read at (e, t, o) that is the
  layer's entry: the view's element (e, t, k) is flat row e·1024 + t, column k, because rows of 1024 features are laid
  end to end.
-/
import proofs.«161583_j55551107007175_1_alg».proof.Proof.Gen.ReferenceIdeal.Run
import proofs.«161583_j55551107007175_1_alg».proof.Proof.Gen.ReferenceIdeal.Read
import proofs.«161583_j55551107007175_1_alg».proof.Proof.Spec

noncomputable section

namespace Cert.ReferenceIdeal.Layer

open Cert.ReferenceIdeal Cert.ReferenceIdeal.Gen Cert.ReferenceIdeal.Read Cert.GroupedLinear
open Idealize.ShloMosaic Idealize.ShloMosaic.ValueIdx
open scoped BigOperators

/-- Element (e, t, k) of the tokens' [8, 1024, 1024] view is the flat array's (e·1024 + t, k). -/
theorem token_index (i : S8x1024x4096.Idx) (k : Fin 1024) :
    idx_main_v0 (lidx_main_v1 i k) = ix2 (tokenRow ⟨(i 0).val, (i 0).isLt⟩ ⟨(i 1).val, (i 1).isLt⟩) k := by
  have h0 : (i 0).val < 8 := (i 0).isLt
  have h1 : (i 1).val < 1024 := (i 1).isLt
  have hk : k.val < 1024 := k.isLt
  funext a; apply Fin.ext
  match a with
  | ⟨0, _⟩ => show (((i 0).val * 1024 + (i 1).val) * 1024 + k.val) / 1024 = (i 0).val * 1024 + (i 1).val; omega
  | ⟨1, _⟩ => show (((i 0).val * 1024 + (i 1).val) * 1024 + k.val) % 1024 = k.val; omega

/-- The weights are read at (e, o, k). -/
theorem weight_index (i : S8x1024x4096.Idx) (k : Fin 1024) :
    ridx_main_v1 i k = ix3 (⟨(i 0).val, (i 0).isLt⟩ : Fin 8) (⟨(i 2).val, (i 2).isLt⟩ : Fin 4096) k := by
  funext a; match a with | ⟨0, _⟩ => rfl | ⟨1, _⟩ => rfl | ⟨2, _⟩ => rfl

/-- The bias, broadcast twice, is read at (e, o). -/
theorem bias_index (i : S8x1024x4096.Idx) :
    idx_main_v2 (idx_main_v3 i) = ix2 (⟨(i 0).val, (i 0).isLt⟩ : Fin 8) (⟨(i 2).val, (i 2).isLt⟩ : Fin 4096) := by
  funext a; match a with | ⟨0, _⟩ => rfl | ⟨1, _⟩ => rfl

/-- The reference's array before its final flattening is the layer. -/
theorem stage_eq_layer (x : (⟨S8192x1024, .f32⟩ : BufTy).Contents (Elt Ideal)) (w : (⟨S8x4096x1024, .f32⟩ : BufTy).Contents (Elt Ideal))
    (b : (⟨S8x4096, .f32⟩ : BufTy).Contents (Elt Ideal)) :
    val_main_v4 (F := Ideal) x w b = layer x w b := by
  funext i
  rw [val_main_v4_apply, val_main_v1_apply, val_main_v3_apply, val_main_v2_apply]
  simp only [val_main_v0_apply, token_index, weight_index, bias_index]
  rfl

end Cert.ReferenceIdeal.Layer

end
-- ==== Proof.lean ====
/-
  A grouped linear layer: 8192 tokens in 8 equal groups of 1024, each group multiplied by its own expert's weight
  matrix (transposed) and shifted by that expert's bias.

  The kernel tiles the work over an 8 × 4 grid (expert by column tile), feeding bf16 copies of tokens and weights to one
  matrix product per point with a zero accumulator and adding the bias row; the reference is one batched contraction over
  the feature axis plus a broadcast bias.  Over the extended reals the bf16 narrowing is the identity, each output entry
  on both sides is the same finite sum over the 1024 features with the bias added once on the right, so the two agree by
  re-indexing alone (`Cert.GroupedLinear.layer`); the integer argument is read by neither.  The inputs' finiteness is
  not needed.
-/
import proofs.«161583_j55551107007175_1_alg».proof.Defs
import proofs.«161583_j55551107007175_1_alg».proof.Proof.Gen.Kernel
import proofs.«161583_j55551107007175_1_alg».proof.Proof.Gen.Kernel.Frame
import proofs.«161583_j55551107007175_1_alg».proof.Proof.Gen.KernelIdeal
import proofs.«161583_j55551107007175_1_alg».proof.Proof.Gen.KernelIdeal.Frame
import proofs.«161583_j55551107007175_1_alg».proof.Proof.Gen.ReferenceIdeal
import proofs.«161583_j55551107007175_1_alg».proof.Proof.Gen.ReferenceIdeal.Run
import proofs.«161583_j55551107007175_1_alg».proof.Proof.Gen.Pre_finite_inputs
import proofs.«161583_j55551107007175_1_alg».proof.Proof.Output
import proofs.«161583_j55551107007175_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of the (agreeing) arguments, flattened to [8192, 4096]. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1]
  exact congrArg (fun A => shapeCast _ A _) (Cert.ReferenceIdeal.Layer.stage_eq_layer _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
